-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x256 : Shape := ⟨2, ![256, 256]⟩
abbrev S256 : Shape := ⟨1, ![256]⟩
abbrev S800000 : Shape := ⟨1, ![800000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S100000x256 .f32) (main_arg1 : FVec F S256x256 .f32) (main_arg2 : FVec F S256 .f32) (main_arg3 : IVec S800000 32) (main_arg4 : IVec S800000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S100000x256 : Shape := ⟨2, ![100000, 256]⟩
abbrev S256x256 : Shape := ⟨2, ![256, 256]⟩
abbrev S256 : Shape := ⟨1, ![256]⟩
abbrev S800000 : Shape := ⟨1, ![800000]⟩
abbrev S1x256 : Shape := ⟨2, ![1, 256]⟩
abbrev S5000x256 : Shape := ⟨2, ![5000, 256]⟩
abbrev S_ : Shape := ⟨0, ![]⟩
abbrev S800000x1 : Shape := ⟨2, ![800000, 1]⟩
abbrev S800000x256 : Shape := ⟨2, ![800000, 256]⟩
abbrev S20000x256 : Shape := ⟨2, ![20000, 256]⟩
abbrev S20000 : Shape := ⟨1, ![20000]⟩
abbrev S20000x1 : Shape := ⟨2, ![20000, 1]⟩
abbrev S100000 : Shape := ⟨1, ![100000]⟩
abbrev S100000x1 : Shape := ⟨2, ![100000, 1]⟩

abbrev nBuf : Space → Nat
  | .hbm => 58
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S256x256, .f32⟩
  | .hbm, ⟨2, _⟩ => ⟨S256, .f32⟩
  | .hbm, ⟨3, _⟩ => ⟨S800000, .i32⟩
  | .hbm, ⟨4, _⟩ => ⟨S800000, .i32⟩
  | .hbm, ⟨5, _⟩ => ⟨S1x256, .f32⟩
  | .hbm, ⟨6, _⟩ => ⟨S100000x256, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x256, .f32⟩
  | .hbm, ⟨16, _⟩ => ⟨S_, .f32⟩
  | .hbm, ⟨17, _⟩ => ⟨S20000x256, .f32⟩
  | .hbm, ⟨18, _⟩ => ⟨S800000x1, .i32⟩
  | .hbm, ⟨19, _⟩ => ⟨S20000x256, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S20000, .f32⟩
  | .hbm, ⟨24, _⟩ => ⟨S800000x1, .i32⟩
  | .hbm, ⟨25, _⟩ => ⟨S20000, .f32⟩
  | .hbm, ⟨26, _⟩ => ⟨S_, .f32⟩
  | .hbm, ⟨27, _⟩ => ⟨S20000, .f32⟩
  | .hbm, ⟨28, _⟩ => ⟨S20000, .f32⟩
  | .hbm, ⟨29, _⟩ => ⟨S20000x1, .f32⟩
  | .hbm, ⟨30, _⟩ => ⟨S20000x256, .f32⟩
  | .hbm, ⟨31, _⟩ => ⟨S20000x256, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x256, .f32⟩
  | .hbm, ⟨41, _⟩ => ⟨S_, .f32⟩
  | .hbm, ⟨42, _⟩ => ⟨S100000x256, .f32⟩
  | .hbm, ⟨43, _⟩ => ⟨S800000x1, .i32⟩
  | .hbm, ⟨44, _⟩ => ⟨S100000x256, .f32⟩
  | .hbm, ⟨45, _⟩ => ⟨S_, .f32⟩
  | .hbm, ⟨46, _⟩ => ⟨S800000, .f32⟩
  | .hbm, ⟨47, _⟩ => ⟨S_, .f32⟩
  | .hbm, ⟨48, _⟩ => ⟨S100000, .f32⟩
  | .hbm, ⟨49, _⟩ => ⟨S800000x1, .i32⟩
  | .hbm, ⟨50, _⟩ => ⟨S100000, .f32⟩
  | .hbm, ⟨51, _⟩ => ⟨S_, .f32⟩
  | .hbm, ⟨52, _⟩ => ⟨S100000, .f32⟩
  | .hbm, ⟨53, _⟩ => ⟨S100000, .f32⟩
  | .hbm, ⟨54, _⟩ => ⟨S100000x1, .f32⟩
  | .hbm, ⟨55, _⟩ => ⟨S100000x256, .f32⟩
  | .hbm, ⟨56, _⟩ => ⟨S100000x256, .f32⟩
  | .hbm, ⟨57, _⟩ => ⟨S100000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  bcast_S_S800000 : S_.BroadcastsInDim S800000 (![] : Fin 0 → Fin S800000.rank)
  bcast_S800000_S800000x1_0 : S800000.BroadcastsInDim S800000x1 (![0] : Fin 1 → Fin S800000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  shapeCasts_S5000x256_S5000x256 : S5000x256.ShapeCasts S5000x256
  dot_S5000x256_S256x256_S5000x256_1_0_0_1_n_n_wf : DotDims.WF S5000x256 S256x256 S5000x256 [1] [0] [0] [1] [] []
  gather_S100000x256_S800000x1_S800000x256_1_0_n_n_0_1_1256_wf : GatherDims.WF S100000x256 S800000x1 S800000x256 [1] [0] [] [0] [] 1 ![1, 256]
  scatter_S20000x256_S800000x1_S800000x256_1_0_0_1_wf : ScatterDims.WF S20000x256 S800000x1 S800000x256 [1] [0] [0] 1
  scatter_S20000_S800000x1_S800000_n_0_0_1_wf : ScatterDims.WF S20000 S800000x1 S800000 [] [0] [0] 1
  gather_S20000x256_S800000x1_S800000x256_1_0_n_n_0_1_1256_wf : GatherDims.WF S20000x256 S800000x1 S800000x256 [1] [0] [] [0] [] 1 ![1, 256]
  scatter_S100000x256_S800000x1_S800000x256_1_0_0_1_wf : ScatterDims.WF S100000x256 S800000x1 S800000x256 [1] [0] [0] 1
  scatter_S100000_S800000x1_S800000_n_0_0_1_wf : ScatterDims.WF S100000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S100000x256.size a
  hwx0_3 : ∀ i : grid0.Coords, EltTy.bits .f32 = 32 ∨ (Rect.block (s := S100000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S100000x256.size a
  hwx1_1 : ∀ i : grid1.Coords, EltTy.bits .f32 = 32 ∨ (Rect.block (s := S100000x256) S5000x256.size (cc1_transform_1 i) (hinb1_1 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S20000x256_S800000x1_S800000x256_1_0_0_1 : ScatterDims S20000x256 S800000x1 S800000x256 where
  updateWindowDims := [1]
  insertedWindowDims := [0]
  scatterDimsToOperandDims := [0]
  indexVectorDim := 1
  wf := scatter_S20000x256_S800000x1_S800000x256_1_0_0_1_wf
def scatter_S20000_S800000x1_S800000_n_0_0_1 : ScatterDims S20000 S800000x1 S800000 where
  updateWindowDims := []
  insertedWindowDims := [0]
  scatterDimsToOperandDims := [0]
  indexVectorDim := 1
  wf := scatter_S20000_S800000x1_S800000_n_0_0_1_wf
def gather_S20000x256_S800000x1_S800000x256_1_0_n_n_0_1_1256 : GatherDims S20000x256 S800000x1 S800000x256 where
  offsetDims := [1]
  collapsedSliceDims := [0]
  operandBatchingDims := []
  startIndicesBatchingDims := []
  startIndexMap := [0]
  indexVectorDim := 1
  sliceSizes := ![1, 256]
  wf := gather_S20000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v39) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S5000x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x256 : Shape := ⟨2, ![256, 256]⟩
abbrev S256 : Shape := ⟨1, ![256]⟩
abbrev S800000 : Shape := ⟨1, ![800000]⟩
abbrev S1x256 : Shape := ⟨2, ![1, 256]⟩
abbrev S_ : Shape := ⟨0, ![]⟩
abbrev S800000x1 : Shape := ⟨2, ![800000, 1]⟩
abbrev S800000x256 : Shape := ⟨2, ![800000, 256]⟩
abbrev S20000x256 : Shape := ⟨2, ![20000, 256]⟩
abbrev S20000 : Shape := ⟨1, ![20000]⟩
abbrev S20000x1 : Shape := ⟨2, ![20000, 1]⟩
abbrev S100000 : Shape := ⟨1, ![100000]⟩
abbrev S100000x1 : Shape := ⟨2, ![100000, 1]⟩

abbrev nBuf : Space → Nat
  | .hbm => 62
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x256, .f32⟩
  | .hbm, ⟨2, _⟩ => ⟨S256, .f32⟩
  | .hbm, ⟨3, _⟩ => ⟨S800000, .i32⟩
  | .hbm, ⟨4, _⟩ => ⟨S800000, .i32⟩
  | .hbm, ⟨5, _⟩ => ⟨S100000x256, .f32⟩
  | .hbm, ⟨6, _⟩ => ⟨S1x256, .f32⟩
  | .hbm, ⟨7, _⟩ => ⟨S100000x256, .f32⟩
  | .hbm, ⟨8, _⟩ => ⟨S100000x256, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S_, .f32⟩
  | .hbm, ⟨19, _⟩ => ⟨S20000x256, .f32⟩
  | .hbm, ⟨20, _⟩ => ⟨S800000x1, .i32⟩
  | .hbm, ⟨21, _⟩ => ⟨S20000x256, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S20000, .f32⟩
  | .hbm, ⟨26, _⟩ => ⟨S800000x1, .i32⟩
  | .hbm, ⟨27, _⟩ => ⟨S20000, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S20000x1, .f32⟩
  | .hbm, ⟨32, _⟩ => ⟨S20000x256, .f32⟩
  | .hbm, ⟨33, _⟩ => ⟨S20000x256, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x256, .f32⟩
  | .hbm, ⟨43, _⟩ => ⟨S_, .f32⟩
  | .hbm, ⟨44, _⟩ => ⟨S100000x256, .f32⟩
  | .hbm, ⟨45, _⟩ => ⟨S800000x1, .i32⟩
  | .hbm, ⟨46, _⟩ => ⟨S100000x256, .f32⟩
  | .hbm, ⟨47, _⟩ => ⟨S_, .f32⟩
  | .hbm, ⟨48, _⟩ => ⟨S800000, .f32⟩
  | .hbm, ⟨49, _⟩ => ⟨S_, .f32⟩
  | .hbm, ⟨50, _⟩ => ⟨S100000, .f32⟩
  | .hbm, ⟨51, _⟩ => ⟨S800000x1, .i32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000, .f32⟩
  | .hbm, ⟨56, _⟩ => ⟨S100000x1, .f32⟩
  | .hbm, ⟨57, _⟩ => ⟨S100000x256, .f32⟩
  | .hbm, ⟨58, _⟩ => ⟨S100000x256, .f32⟩
  | .hbm, ⟨59, _⟩ => ⟨S_, .f32⟩
  | .hbm, ⟨60, _⟩ => ⟨S100000x256, .f32⟩
  | .hbm, ⟨61, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_call0_cst : Ref sig .tc := ⟨.hbm, 59, rfl⟩
abbrev main_call0_v0 : Ref sig .tc := ⟨.hbm, 60, rfl⟩
abbrev main_v42 : Ref sig .tc := ⟨.hbm, 61, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  dot_S100000x256_S256x256_S100000x256_1_0_0_1_n_n_wf : DotDims.WF S100000x256 S256x256 S100000x256 [1] [0] [0] [1] [] []
  gather_S100000x256_S800000x1_S800000x256_1_0_n_n_0_1_1256_wf : GatherDims.WF S100000x256 S800000x1 S800000x256 [1] [0] [] [0] [] 1 ![1, 256]
  scatter_S20000x256_S800000x1_S800000x256_1_0_0_1_wf : ScatterDims.WF S20000x256 S800000x1 S800000x256 [1] [0] [0] 1
  scatter_S20000_S800000x1_S800000_n_0_0_1_wf : ScatterDims.WF S20000 S800000x1 S800000 [] [0] [0] 1
  gather_S20000x256_S800000x1_S800000x256_1_0_n_n_0_1_1256_wf : GatherDims.WF S20000x256 S800000x1 S800000x256 [1] [0] [] [0] [] 1 ![1, 256]
  scatter_S100000x256_S800000x1_S800000x256_1_0_0_1_wf : ScatterDims.WF S100000x256 S800000x1 S800000x256 [1] [0] [0] 1
  scatter_S100000_S800000x1_S800000_n_0_0_1_wf : ScatterDims.WF S100000 S800000x1 S800000 [] [0] [0] 1

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S20000x256_S800000x1_S800000x256_1_0_0_1 : ScatterDims S20000x256 S800000x1 S800000x256 where
  updateWindowDims := [1]
  insertedWindowDims := [0]
  scatterDimsToOperandDims := [0]
  indexVectorDim := 1
  wf := scatter_S20000x256_S800000x1_S800000x256_1_0_0_1_wf
def scatter_S20000_S800000x1_S800000_n_0_0_1 : ScatterDims S20000 S800000x1 S800000 where
  updateWindowDims := []
  insertedWindowDims := [0]
  scatterDimsToOperandDims := [0]
  indexVectorDim := 1
  wf := scatter_S20000_S800000x1_S800000_n_0_0_1_wf
def gather_S20000x256_S800000x1_S800000x256_1_0_n_n_0_1_1256 : GatherDims S20000x256 S800000x1 S800000x256 where
  offsetDims := [1]
  collapsedSliceDims := [0]
  operandBatchingDims := []
  startIndicesBatchingDims := []
  startIndexMap := [0]
  indexVectorDim := 1
  sliceSizes := ![1, 256]
  wf := gather_S20000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf

class Facts : Prop extends Facts₀ where

variable [Facts]
-- ==== Proof.Spec.lean ====
/-
  The three whole-array functions the two programs share.

  A hypergraph convolution on 100000 vertices, 20000 hyperedges and 800000 incidence pairs (v, e), features of width 256:

    H      = X · W + b                       row i of X against column j of W, plus b_j
    Y_e    = mean { H_v  : (v, e) incident }  a sum scattered by hyperedge over a count clamped below by 1
    Z_v    = mean { Y_e  : (v, e) incident }  the same back to the vertices
    result = max(Z, 0)

  `project` is the first line index by index, `aggregate` the two means as ONE function of H and the two index arrays
  (a gather, a scatter-add and a division, twice over; negative indices wrapped once), `relu` the last line.
  Over the extended reals a change of float format is the identity, so the projection is an exact sum of 256 products.
-/
import proofs.«177175_j10187662426196_1_alg».proof.Proof.Gen.KernelIdeal
import Idealize.ShloMosaic.PureOps.Ideal

noncomputable section

namespace Cert.Hyper

open Idealize.ShloMosaic Cert.KernelIdeal Cert.KernelIdeal.Gen

/-- Entry (row of i, k) of the feature matrix. -/
abbrev xAt (i : S100000x256.Idx) (k : Fin 256) : S100000x256.Idx := fun a => match a with
  | ⟨0, _⟩ => ⟨(i 0).val, (i 0).isLt⟩
  | ⟨1, _⟩ => ⟨k.val, k.isLt⟩
/-- Entry (k, column of i) of the weight matrix. -/
abbrev wAt (i : S100000x256.Idx) (k : Fin 256) : S256x256.Idx := fun a => match a with
  | ⟨0, _⟩ => ⟨k.val, k.isLt⟩
  | ⟨1, _⟩ => ⟨(i 1).val, (i 1).isLt⟩
/-- Entry (0, column of i) of the bias, kept as one row. -/
abbrev bAt (i : S100000x256.Idx) : S1x256.Idx := fun a => match a with
  | ⟨0, _⟩ => ⟨0, Nat.one_pos⟩
  | ⟨1, _⟩ => ⟨(i 1).val, (i 1).isLt⟩

/-- The linear projection: at (r, j) the sum over k of X[r, k] · W[k, j], plus the bias of column j. -/
def project (X : FVec Ideal S100000x256 .f32) (W : FVec Ideal S256x256 .f32) (b : FVec Ideal S1x256 .f32) :
    FVec Ideal S100000x256 .f32 :=
  fun i => (∑ k : Fin 256, X (xAt i k) * W (wAt i k)) + b (bAt i)

variable {F : FTy → Type} [FloatOps F]

/-- Vertex features averaged into hyperedges and back: both programs apply exactly these operations to the projection
    `H`, the vertex indices `vi` and the hyperedge indices `ei`. -/
def aggregate (H : FVec F S100000x256 .f32) (vi ei : IVec S800000 32) : FVec F S100000x256 .f32 :=
  Host.divf (Host.scatterAdd scatter_S100000x256_S800000x1_S800000x256_1_0_0_1 (broadcastInDim S100000x256 ![] bcast_S_S100000x256 (constant S_ .f32 0x00000000#32)) (broadcastInDim S800000x1 ![0] bcast_S800000_S800000x1_0 vi) (Host.gather gather_S20000x256_S800000x1_S800000x256_1_0_n_n_0_1_1256 (Host.divf (Host.scatterAdd scatter_S20000x256_S800000x1_S800000x256_1_0_0_1 (broadcastInDim S20000x256 ![] bcast_S_S20000x256 (constant S_ .f32 0x00000000#32)) (broadcastInDim S800000x1 ![0] bcast_S800000_S800000x1_0 ei) (Host.gather gather_S100000x256_S800000x1_S800000x256_1_0_n_n_0_1_1256 H (broadcastInDim S800000x1 ![0] bcast_S800000_S800000x1_0 (select (cmpi .slt vi (broadcastInDim S800000 ![] bcast_S_S800000 (constantI S_ 32 0#32))) (addi vi (broadcastInDim S800000 ![] bcast_S_S800000 (constantI S_ 32 100000#32))) vi)))) (broadcastInDim S20000x256 ![0, 1] bcast_S20000x1_S20000x256_0_1 (broadcastInDim S20000x1 ![0] bcast_S20000_S20000x1_0 (maximumf (Host.scatterAdd scatter_S20000_S800000x1_S800000_n_0_0_1 (broadcastInDim S20000 ![] bcast_S_S20000 (constant S_ .f32 0x00000000#32)) (broadcastInDim S800000x1 ![0] bcast_S800000_S800000x1_0 ei) (broadcastInDim S800000 ![] bcast_S_S800000 (constant S_ .f32 0x3F800000#32))) (broadcastInDim S20000 ![] bcast_S_S20000 (constant S_ .f32 0x3F800000#32)))))) (broadcastInDim S800000x1 ![0] bcast_S800000_S800000x1_0 (select (cmpi .slt ei (broadcastInDim S800000 ![] bcast_S_S800000 (constantI S_ 32 0#32))) (addi ei (broadcastInDim S800000 ![] bcast_S_S800000 (constantI S_ 32 20000#32))) ei)))) (broadcastInDim S100000x256 ![0, 1] bcast_S100000x1_S100000x256_0_1 (broadcastInDim S100000x1 ![0] bcast_S100000_S100000x1_0 (maximumf (Host.scatterAdd scatter_S100000_S800000x1_S800000_n_0_0_1 (broadcastInDim S100000 ![] bcast_S_S100000 (constant S_ .f32 0x00000000#32)) (broadcastInDim S800000x1 ![0] bcast_S800000_S800000x1_0 vi) (broadcastInDim S800000 ![] bcast_S_S800000 (constant S_ .f32 0x3F800000#32))) (broadcastInDim S100000 ![] bcast_S_S100000 (constant S_ .f32 0x3F800000#32)))))

/-- The positive part, entry by entry. -/
def relu (Z : FVec F S100000x256 .f32) : FVec F S100000x256 .f32 :=
  maximumf Z (broadcastInDim S100000x256 ![] bcast_S_S100000x256 (constant S_ .f32 0x00000000#32))

/-- At an index the positive part is the larger of the entry and the zero word's value. -/
theorem relu_apply (Z : FVec F S100000x256 .f32) (i : S100000x256.Idx) :
    relu Z i = FloatOps.maximumf (Z i) (FloatOps.ofBits .f32 0x00000000#32) := rfl

end Cert.Hyper

end
-- ==== Proof.ReluArr.lean ====
/-
  The second kernel region: twenty row blocks of 5000 rows, each replaced by its positive part.

  Grid point t reads rows 5000·t … 5000·t + 4999 of the region's input array and writes the entrywise maximum with zero to
  the same rows of the output array. The positive part is computed entry by entry, so the block that point t writes is
  the block of `relu` of the whole input; the twenty blocks tile the 100000 rows (row r lies in block r / 5000), hence the
  output array after the region is `relu` of the input array as the region found it.
-/
import proofs.«177175_j10187662426196_1_alg».proof.Proof.Gen.KernelIdeal.Frame
import proofs.«177175_j10187662426196_1_alg».proof.Proof.Spec
import Idealize.ShloMosaic.Lib.Pipeline.Value

noncomputable section

namespace Cert.Hyper.Relu

open Cert.KernelIdeal Cert.KernelIdeal.Gen Cert.Hyper
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Both windows of the region sit at block row t, block column 0, at every grid point t. -/
theorem block_index : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- The body's stored value at an index of the block: the larger of the loaded entry and zero. -/
theorem stored_apply (x0 : Vec Ideal S5000x256 .f32) (j : S5000x256.Idx) :
    k1_pay1 (F := Ideal) x0 j = FloatOps.maximumf (x0 j) (FloatOps.ofBits .f32 0x00000000#32) := by
  unfold k1_pay1
  rw [shapeCast_self]
  rfl

/-- Entry (x₀, x₁) of the input block at point t is entry (5000·t + x₀, x₁) of the input array. -/
theorem block_read (c : Dev nD) (t : Fin cfg1.N) (x : S5000x256.Idx) (k : S100000x256.Idx)
    (hk0 : (k 0).val = 5000 * t.val + (x 0).val) (hk1 : (k 1).val = (x 1).val) :
    (iblk1 V c 0 t : Vec Ideal S5000x256 .f32) x = (V c main_v39 : S100000x256.Idx → Elt Ideal .f32) k := by
  obtain ⟨e0, e1, -, -⟩ := block_index t
  unfold iblk1
  rw [View.read_apply]
  show V c main_v39 _ = V c main_v39 _
  congr 1
  funext a
  apply Fin.ext
  match a with
  | ⟨0, _⟩ => show win1_0.index t (0 : Fin 2) * 5000 + 1 * (x 0).val = (k 0).val; omega
  | ⟨1, _⟩ => show win1_0.index t (1 : Fin 2) * 256 + 1 * (x 1).val = (k 1).val; omega

/-- What point t writes back is block t of the positive part of the input array. -/
theorem written_block (c : Dev nD) (t : Fin cfg1.N) :
    (dat1 V c).flushed 1 t = ((cfg1.win 1).blk t).view.read (Elt Ideal) (relu (F := Ideal) (V c main_v39)) := by
  show (cfg1.win 1).cut (grid1.coords t) ((dat1 V c).after 1 t) = _
  rw [after1_1]
  unfold out1_1
  rw [View.canon_unit_zero zero_offsets]
  simp only [View.ld_unit_zero (S := S5000x256) zero_offsets]
  obtain ⟨-, -, e2, e3⟩ := block_index t
  funext j
  show k1_pay1 (F := Ideal) (iblk1 V c 0 t) j = _
  refine (stored_apply (iblk1 V c 0 t) j).trans ?_
  refine (congrArg (fun z => FloatOps.maximumf (F := Ideal) (φ := .f32) z (FloatOps.ofBits .f32 0x00000000#32))
    (block_read V c t j (((cfg1.win 1).blk t).view.emb j) ?_ ?_)).trans ?_
  · show win1_1.index t (0 : Fin 2) * 5000 + 1 * (j 0).val = 5000 * t.val + (j 0).val; omega
  · show win1_1.index t (1 : Fin 2) * 256 + 1 * (j 1).val = (j 1).val; omega
  · rfl

/-- An index of the output array lies in point t's block iff each coordinate lies in the block's range on its axis. -/
theorem mem_block (t : Fin cfg1.N) (i : S100000x256.Idx) :
    i ∈ ((cfg1.win 1).blk t).view.set ↔ ∀ a : Fin 2, win1_1.index t a * S5000x256.size a ≤ (i a).val ∧ (i a).val < win1_1.index t a * S5000x256.size a + S5000x256.size a := by
  show i ∈ ((View.whole main_v40).slice (win1_1.rect t)).set ↔ _
  rw [View.set_slice_whole, Rect.mem_set_unit]
  exact Iff.rfl

/-- Every row lies in one of the twenty blocks: row r in block r / 5000. -/
theorem tiled (i : S100000x256.Idx) : ∃ t : Fin cfg1.N, (cfg1.win 1).flush t = true ∧ i ∈ ((cfg1.win 1).blk t).view.set := by
  have hN : cfg1.N = 20 := N_1
  have hi0 : (i 0).val < 100000 := (i 0).isLt
  have hi1 : (i 1).val < 256 := (i 1).isLt
  let t : Fin cfg1.N := ⟨(i 0).val / 5000, by rw [hN]; omega⟩
  obtain ⟨-, -, e2, e3⟩ := block_index t
  have ht : t.val = (i 0).val / 5000 := rfl
  refine ⟨t, flush1_1 t, ?_⟩
  rw [mem_block]
  intro a
  match a with
  | ⟨0, _⟩ => show win1_1.index t (0 : Fin 2) * 5000 ≤ (i 0).val ∧ (i 0).val < win1_1.index t (0 : Fin 2) * 5000 + 5000; omega
  | ⟨1, _⟩ => show win1_1.index t (1 : Fin 2) * 256 ≤ (i 1).val ∧ (i 1).val < win1_1.index t (1 : Fin 2) * 256 + 256; omega

/-- After the region its output array is the positive part of its input array. -/
theorem output (c : Dev nD) : (dat1 V c).arrAt 1 cfg1.N = relu (F := Ideal) (V c main_v39) :=
  (dat1 V c).arrAt_eq_of_cover 1 (relu (F := Ideal) (V c main_v39)) (fun t _ => written_block V c t) tiled

end Cert.Hyper.Relu

end
-- ==== Proof.LinearArr.lean ====
/-
  The first kernel region: the linear projection, twenty row blocks of 5000 rows.

  Grid point t loads rows 5000·t … 5000·t + 4999 of the feature matrix, the whole weight matrix and the bias row, multiplies
  the row block by the weights on the matrix unit into a zero accumulator and adds the bias row to every row. Over the
  extended reals the narrowing of the two operands to the short format is the identity and the product into a zero
  accumulator is the plain sum over the contracted axis, so entry (x₀, x₁) of the block is
  Σₖ X[5000·t + x₀, k] · W[k, x₁] + b[0, x₁]: the block of `project X W b` at point t. The twenty blocks tile the rows,
  so the region's output array ends as `project` of the three arrays as the region found them.
-/
import proofs.«177175_j10187662426196_1_alg».proof.Proof.Gen.KernelIdeal.Frame
import proofs.«177175_j10187662426196_1_alg».proof.Proof.Spec
import Idealize.ShloMosaic.Lib.Pipeline.Value
import Idealize.ShloMosaic.Lib.ValueIdx
import Idealize.ShloMosaic.PureOps.Ideal.Laws

noncomputable section

namespace Cert.Hyper.Linear

open Cert.KernelIdeal Cert.KernelIdeal.Gen Cert.Hyper
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-! ## The matrix product's operand indices -/

/-- The left operand is read at the output's row … -/
theorem lhs_row (j : S5000x256.Idx) (q : dot_S5000x256_S256x256_S5000x256_1_0_0_1_n_n.contr.Idx) :
    (dot_S5000x256_S256x256_S5000x256_1_0_0_1_n_n.lhsIdx j q 0).val = (j 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
/-- … and the contracted coordinate; -/
theorem lhs_col (j : S5000x256.Idx) (q : dot_S5000x256_S256x256_S5000x256_1_0_0_1_n_n.contr.Idx) :
    (dot_S5000x256_S256x256_S5000x256_1_0_0_1_n_n.lhsIdx j q 1).val = (q ⟨0, by decide⟩).val :=
  dot_S5000x256_S256x256_S5000x256_1_0_0_1_n_n.lhsIdx_val_of_single rfl j q
/-- the right operand at the contracted coordinate … -/
theorem rhs_row (j : S5000x256.Idx) (q : dot_S5000x256_S256x256_S5000x256_1_0_0_1_n_n.contr.Idx) :
    (dot_S5000x256_S256x256_S5000x256_1_0_0_1_n_n.rhsIdx j q 0).val = (q ⟨0, by decide⟩).val :=
  dot_S5000x256_S256x256_S5000x256_1_0_0_1_n_n.rhsIdx_val_of_single rfl j q
/-- … and the output's column. -/
theorem rhs_col (j : S5000x256.Idx) (q : dot_S5000x256_S256x256_S5000x256_1_0_0_1_n_n.contr.Idx) :
    (dot_S5000x256_S256x256_S5000x256_1_0_0_1_n_n.rhsIdx j q 1).val = (j 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- Entry (row of j, k) of the row block. -/
abbrev rowAt (j : S5000x256.Idx) (k : Fin 256) : S5000x256.Idx := fun a => match a with
  | ⟨0, _⟩ => ⟨(j 0).val, (j 0).isLt⟩
  | ⟨1, _⟩ => ⟨k.val, k.isLt⟩
/-- Entry (k, column of j) of the weights. -/
abbrev colAt (j : S5000x256.Idx) (k : Fin 256) : S256x256.Idx := fun a => match a with
  | ⟨0, _⟩ => ⟨k.val, k.isLt⟩
  | ⟨1, _⟩ => ⟨(j 1).val, (j 1).isLt⟩
/-- Entry (0, column of j) of the bias row. -/
abbrev biasAt (j : S5000x256.Idx) : S1x256.Idx := fun a => match a with
  | ⟨0, _⟩ => ⟨0, Nat.one_pos⟩
  | ⟨1, _⟩ => ⟨(j 1).val, (j 1).isLt⟩

/-! ## The stored value at an index -/

/-- The product into the zero accumulator, at (x₀, x₁): the sum over k of the row block at (x₀, k) times the weights at
    (k, x₁); the narrowing of both operands is the identity on the extended reals. -/
theorem product_apply (x0 : Vec Ideal S5000x256 .f32) (x1 : Vec Ideal S256x256 .f32) (j : S5000x256.Idx) :
    matmul dot_S5000x256_S256x256_S5000x256_1_0_0_1_n_n none (truncf (F := Ideal) .bf16 x0 bitsLt_bf16_f32) (truncf (F := Ideal) .bf16 x1 bitsLt_bf16_f32) (constant S5000x256 .f32 0x00000000#32) j
      = ∑ k : Fin 256, x0 (rowAt j k) * x1 (colAt j k) := by
  refine (Ideal.matmul_constant_zero_apply dot_S5000x256_S256x256_S5000x256_1_0_0_1_n_n none _ _ j).trans ?_
  rw [← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx j ((ValueIdx.contrEquiv1 dot_S5000x256_S256x256_S5000x256_1_0_0_1_n_n 256 rfl rfl).symm k) = rowAt j k := funext fun a => Fin.ext (by
    match a with
    | ⟨0, _⟩ => exact lhs_row _ _
    | ⟨1, _⟩ => exact (lhs_col _ _).trans hk)
  have er : dot_S5000x256_S256x256_S5000x256_1_0_0_1_n_n.rhsIdx j ((ValueIdx.contrEquiv1 dot_S5000x256_S256x256_S5000x256_1_0_0_1_n_n 256 rfl rfl).symm k) = colAt j k := funext fun a => Fin.ext (by
    match a with
    | ⟨0, _⟩ => exact (rhs_row _ _).trans hk
    | ⟨1, _⟩ => exact rhs_col _ _)
  show x0 (dot_S5000x256_S256x256_S5000x256_1_0_0_1_n_n.lhsIdx j _) * x1 (dot_S5000x256_S256x256_S5000x256_1_0_0_1_n_n.rhsIdx j _) = _
  rw [el, er]

/-- The bias row spread over the block, at (x₀, x₁): the row's entry at x₁. -/
theorem bias_apply (x2 : Vec Ideal S1x256 .f32) (j : S5000x256.Idx) :
    broadcastTo S5000x256 (shapeCast S1x256 x2 shapeCasts_S1x256_S1x256) broadcasts_S1x256_S5000x256 j = x2 (biasAt j) := by
  rw [shapeCast_self]
  exact broadcastTo_apply x2 broadcasts_S1x256_S5000x256 j (biasAt j) (fun a => match a with
    | ⟨0, _⟩ => by show 0 = if (1 : Nat) = 1 then 0 else (j 0).val; rw [if_pos rfl]
    | ⟨1, _⟩ => by show (j 1).val = if (256 : Nat) = 1 then 0 else (j 1).val; rw [if_neg (by decide)])

/-- The body's stored value at (x₀, x₁): Σₖ x0[x₀, k] · x1[k, x₁] + x2[0, x₁]. -/
theorem stored_apply (x0 : Vec Ideal S5000x256 .f32) (x1 : Vec Ideal S256x256 .f32) (x2 : Vec Ideal S1x256 .f32) (j : S5000x256.Idx) :
    k0_pay1 (F := Ideal) x0 x1 x2 j = (∑ k : Fin 256, x0 (rowAt j k) * x1 (colAt j k)) + x2 (biasAt j) := by
  unfold k0_pay1
  show FloatOps.addf (matmul dot_S5000x256_S256x256_S5000x256_1_0_0_1_n_n none (truncf (F := Ideal) .bf16 x0 bitsLt_bf16_f32) (truncf (F := Ideal) .bf16 x1 bitsLt_bf16_f32) (constant S5000x256 .f32 0x00000000#32) j)
      (broadcastTo S5000x256 (shapeCast S1x256 x2 shapeCasts_S1x256_S1x256) broadcasts_S1x256_S5000x256 j) = _
  rw [product_apply, bias_apply]
  rfl

/-! ## The blocks -/

/-- The feature window and the output window sit at block row t; the weights and the bias row are whole. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three input blocks at a point and the three arrays the region reads, each at its literal shape. -/
abbrev xblk (c : Dev nD) (t : Fin cfg0.N) : Vec Ideal S5000x256 .f32 := iblk0 V c 0 t
abbrev wblk (c : Dev nD) (t : Fin cfg0.N) : Vec Ideal S256x256 .f32 := iblk0 V c 1 t
abbrev bblk (c : Dev nD) (t : Fin cfg0.N) : Vec Ideal S1x256 .f32 := iblk0 V c 2 t
abbrev xarr (c : Dev nD) : FVec Ideal S100000x256 .f32 := V c main_arg0
abbrev warr (c : Dev nD) : FVec Ideal S256x256 .f32 := V c main_arg1
abbrev barr (c : Dev nD) : FVec Ideal S1x256 .f32 := V c main_v0

/-- Entry (x₀, x₁) of the feature block at point t is entry (5000·t + x₀, x₁) of the feature matrix. -/
theorem features_read (c : Dev nD) (t : Fin cfg0.N) (x : S5000x256.Idx) (k : S100000x256.Idx)
    (hk0 : (k 0).val = 5000 * t.val + (x 0).val) (hk1 : (k 1).val = (x 1).val) :
    xblk V c t x = xarr V c k := by
  obtain ⟨e0, e1, -⟩ := block_index t
  unfold xblk xarr iblk0
  rw [View.read_apply]
  show V c main_arg0 _ = V c main_arg0 _
  congr 1
  funext a
  apply Fin.ext
  match a with
  | ⟨0, _⟩ => show win0_0.index t (0 : Fin 2) * 5000 + 1 * (x 0).val = (k 0).val; omega
  | ⟨1, _⟩ => show win0_0.index t (1 : Fin 2) * 256 + 1 * (x 1).val = (k 1).val; omega

/-- The weight block at every point is the weight matrix. -/
theorem weights_read (c : Dev nD) (t : Fin cfg0.N) (x : S256x256.Idx) (k : S256x256.Idx)
    (hk0 : (k 0).val = (x 0).val) (hk1 : (k 1).val = (x 1).val) :
    wblk V c t x = warr V c k := by
  obtain ⟨-, -, e2, e3, -⟩ := block_index t
  unfold wblk warr iblk0
  rw [View.read_apply]
  show V c main_arg1 _ = V c main_arg1 _
  congr 1
  funext a
  apply Fin.ext
  match a with
  | ⟨0, _⟩ => show win0_1.index t (0 : Fin 2) * 256 + 1 * (x 0).val = (k 0).val; omega
  | ⟨1, _⟩ => show win0_1.index t (1 : Fin 2) * 256 + 1 * (x 1).val = (k 1).val; omega

/-- The bias block at every point is the bias row. -/
theorem bias_read (c : Dev nD) (t : Fin cfg0.N) (x : S1x256.Idx) (k : S1x256.Idx)
    (hk0 : (k 0).val = (x 0).val) (hk1 : (k 1).val = (x 1).val) :
    bblk V c t x = barr V c k := by
  obtain ⟨-, -, -, -, e4, e5, -⟩ := block_index t
  unfold bblk barr iblk0
  rw [View.read_apply]
  show V c main_v0 _ = V c main_v0 _
  congr 1
  funext a
  apply Fin.ext
  match a with
  | ⟨0, _⟩ => show win0_2.index t (0 : Fin 2) * 1 + 1 * (x 0).val = (k 0).val; omega
  | ⟨1, _⟩ => show win0_2.index t (1 : Fin 2) * 256 + 1 * (x 1).val = (k 1).val; omega

/-- What point t writes back is block t of the projection of the three arrays. -/
theorem written_block (c : Dev nD) (t : Fin cfg0.N) :
    (dat0 V c).flushed 3 t = ((cfg0.win 3).blk t).view.read (Elt Ideal) (project (V c main_arg0) (V c main_arg1) (V c main_v0)) := by
  show (cfg0.win 3).cut (grid0.coords t) ((dat0 V c).after 3 t) = _
  rw [after0_3]
  unfold out0_3
  rw [View.canon_unit_zero zero_offsets]
  simp only [View.ld_unit_zero (S := S5000x256) zero_offsets, View.ld_unit_zero (S := S256x256) zero_offsets, View.ld_unit_zero (S := S1x256) zero_offsets]
  obtain ⟨-, -, -, -, -, -, e6, e7⟩ := block_index t
  funext j
  show k0_pay1 (F := Ideal) (iblk0 V c 0 t) (iblk0 V c 1 t) (iblk0 V c 2 t) j = _
  refine (stored_apply (xblk V c t) (wblk V c t) (bblk V c t) j).trans ?_
  have h0 : ((((cfg0.win 3).blk t).view.emb j) 0).val = 5000 * t.val + (j 0).val := by
    show win0_3.index t (0 : Fin 2) * 5000 + 1 * (j 0).val = _; omega
  have h1 : ((((cfg0.win 3).blk t).view.emb j) 1).val = (j 1).val := by
    show win0_3.index t (1 : Fin 2) * 256 + 1 * (j 1).val = _; omega
  have hsum : (∑ k : Fin 256, xblk V c t (rowAt j k) * wblk V c t (colAt j k))
      = ∑ k : Fin 256, xarr V c (xAt (((cfg0.win 3).blk t).view.emb j) k) * warr V c (wAt (((cfg0.win 3).blk t).view.emb j) k) :=
    Finset.sum_congr rfl fun k _ => by
      rw [features_read V c t (rowAt j k) (xAt (((cfg0.win 3).blk t).view.emb j) k) h0 rfl,
        weights_read V c t (colAt j k) (wAt (((cfg0.win 3).blk t).view.emb j) k) rfl h1]
  have hbias : bblk V c t (biasAt j) = barr V c (bAt (((cfg0.win 3).blk t).view.emb j)) :=
    bias_read V c t (biasAt j) (bAt (((cfg0.win 3).blk t).view.emb j)) rfl h1
  exact (congrArg₂ (fun (s b : EReal) => s + b) hsum hbias).trans rfl

/-- An index of the output array lies in point t's block iff each coordinate lies in the block's range on its axis. -/
theorem mem_block (t : Fin cfg0.N) (i : S100000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v1).slice (win0_3.rect t)).set ↔ _
  rw [View.set_slice_whole, Rect.mem_set_unit]
  exact Iff.rfl

/-- Every row lies in one of the twenty blocks: row r in block r / 5000. -/
theorem tiled (i : S100000x256.Idx) : ∃ t : Fin cfg0.N, (cfg0.win 3).flush t = true ∧ i ∈ ((cfg0.win 3).blk t).view.set := by
  have hN : cfg0.N = 20 := N_0
  have hi0 : (i 0).val < 100000 := (i 0).isLt
  have hi1 : (i 1).val < 256 := (i 1).isLt
  let t : Fin cfg0.N := ⟨(i 0).val / 5000, by rw [hN]; omega⟩
  obtain ⟨-, -, -, -, -, -, e6, e7⟩ := block_index t
  have ht : t.val = (i 0).val / 5000 := rfl
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

/-- After the region its output array is the projection of the three arrays it read. -/
theorem output (c : Dev nD) : (dat0 V c).arrAt 3 cfg0.N = project (V c main_arg0) (V c main_arg1) (V c main_v0) :=
  (dat0 V c).arrAt_eq_of_cover 3 (project (V c main_arg0) (V c main_arg1) (V c main_v0)) (fun t _ => written_block V c t) tiled

end Cert.Hyper.Linear

end
-- ==== Proof.KValue.lean ====
/-
  The idealized kernel's result as one function of its arguments.

  Between the launch and the return the program's memory passes four boundaries. Before the first region one host
  operation reshapes the bias b into a row; the first region leaves the projection H = X · W + b of the arguments in its
  output array; the host operations between the regions compute the two mean aggregations of H along the incidence
  pairs and touch no argument; the second region leaves the positive part of that. So the result array ends at
  relu (aggregate (project X W b) vertex_idx edge_idx), with the arguments as launched.
-/
import proofs.«177175_j10187662426196_1_alg».proof.Proof.KRun
import proofs.«177175_j10187662426196_1_alg».proof.Proof.ReluArr
import proofs.«177175_j10187662426196_1_alg».proof.Proof.LinearArr
import Idealize.ShloMosaic.Lib.StableHlo.Run

set_option maxRecDepth 16384

noncomputable section

namespace Cert.Hyper.KernelValue

open Cert.KernelIdeal Cert.KernelIdeal.Gen Cert.Hyper
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The bias as the one-row matrix the first region reads. -/
abbrev biasRow (c : Dev nD) : FVec Ideal S1x256 .f32 :=
  shapeCast S1x256 (m ((c.tc : Thread nD τ).loc main_arg2)) shapeCasts_S256_S1x256

/-! ## The first region's entry: the arguments as launched, the bias reshaped -/

theorem entry_features (c : Dev nD) : V1 m ρ c main_arg0 = m ((c.tc : Thread nD τ).loc main_arg0) := by
  show StableHlo.after hostOps0 (W0 m ρ c) (Proc.devRef .tc main_arg0) = _
  after_results
theorem entry_weights (c : Dev nD) : V1 m ρ c main_arg1 = m ((c.tc : Thread nD τ).loc main_arg1) := by
  show StableHlo.after hostOps0 (W0 m ρ c) (Proc.devRef .tc main_arg1) = _
  after_results
theorem entry_bias (c : Dev nD) : V1 m ρ c main_v0 = biasRow m c := by
  show StableHlo.after hostOps0 (W0 m ρ c) (Proc.devRef .tc main_v0) = _
  after_results
  rfl

/-! ## After the first region -/

/-- The first region's output array holds the projection of the arguments. -/
theorem projection (c : Dev nD) : W2 m ρ c (Proc.devRef .tc main_v1)
    = project (m ((c.tc : Thread nD τ).loc main_arg0)) (m ((c.tc : Thread nD τ).loc main_arg1)) (biasRow m c) := by
  refine (W2_arr m ρ c 3).trans ((Linear.output (V1 m ρ) c).trans ?_)
  rw [entry_features, entry_weights, entry_bias]

/-- The index arrays are no window of the first region and no host operation before it writes them. -/
theorem vertex_kept (c : Dev nD) : W2 m ρ c (Proc.devRef .tc main_arg3) = m ((c.tc : Thread nD τ).loc main_arg3) := by
  refine (W2_of_ne m ρ c main_arg3 (by decide)).trans ?_
  show StableHlo.after hostOps0 (W0 m ρ c) (Proc.devRef .tc main_arg3) = _
  after_results
theorem edge_kept (c : Dev nD) : W2 m ρ c (Proc.devRef .tc main_arg4) = m ((c.tc : Thread nD τ).loc main_arg4) := by
  refine (W2_of_ne m ρ c main_arg4 (by decide)).trans ?_
  show StableHlo.after hostOps0 (W0 m ρ c) (Proc.devRef .tc main_arg4) = _
  after_results

/-! ## The second region's entry: the host operations between the regions are the aggregation -/

theorem entry_aggregate (c : Dev nD) : V3 m ρ c main_v39
    = aggregate (F := Ideal) (W2 m ρ c (Proc.devRef .tc main_v1)) (W2 m ρ c (Proc.devRef .tc main_arg3)) (W2 m ρ c (Proc.devRef .tc main_arg4)) := by
  show StableHlo.after hostOps1 (W2 m ρ c) (Proc.devRef .tc main_v39) = _
  after_results_simp
  rfl

/-! ## The result -/

/-- The function of the arguments both programs compute. -/
abbrev value (c : Dev nD) : FVec Ideal S100000x256 .f32 :=
  relu (F := Ideal) (aggregate (F := Ideal)
    (project (m ((c.tc : Thread nD τ).loc main_arg0)) (m ((c.tc : Thread nD τ).loc main_arg1)) (biasRow m c))
    (m ((c.tc : Thread nD τ).loc main_arg3)) (m ((c.tc : Thread nD τ).loc main_arg4)))

theorem result (c : Dev nD) : W4 m ρ c (Proc.devRef .tc main_v40) = value m c := by
  refine (W4_arr m ρ c 1).trans ((Relu.output (V3 m ρ) c).trans ?_)
  refine congrArg (relu (F := Ideal)) ?_
  refine (entry_aggregate m ρ c).trans ?_
  rw [projection, vertex_kept, edge_kept]

/-- Every weakly fair execution of the idealized kernel ends with the result array at `value` of the arguments and the
    arguments unchanged. -/
theorem run : θ_run defs (onTc (τ := τ) (main (F := Ideal))) ⟨m, fun _ => 0, ρ⟩ (fun r => ∀ c : Dev nD,
      r.2.mem ((c.tc : Thread nD τ).loc main_v40) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result m ρ c), (h c).2⟩)
    (Cert.KernelIdeal.Named.run_named (F := Ideal) m ρ)

end Cert.Hyper.KernelValue

end
-- ==== Proof.RefSide.lean ====
/-
  The idealized reference's result is the same function of the arguments.

  The reference multiplies X by W with one host product, adds the bias spread over the rows, and then applies — operation
  for operation, constant for constant — the aggregation and the positive part the kernel's program applies. Its product at
  (r, j) is the sum over k of X[r, k] · W[k, j] and its bias term at (r, j) is b[j], the entry (0, j) of b read as a row: so
  its projection is `project X W` of that row, and the rest of its term is `relu (aggregate · vertex_idx edge_idx)` as written.
-/
import proofs.«177175_j10187662426196_1_alg».proof.Defs
import proofs.«177175_j10187662426196_1_alg».proof.Proof.Gen.ReferenceIdeal.Run
import proofs.«177175_j10187662426196_1_alg».proof.Proof.Gen.ReferenceIdeal.Read
import proofs.«177175_j10187662426196_1_alg».proof.Proof.Spec
import Idealize.ShloMosaic.Lib.Pipeline.Value

noncomputable section

namespace Cert.Hyper.Reference

open Cert.ReferenceIdeal Cert.ReferenceIdeal.Gen Cert.ReferenceIdeal.Read
open Idealize.ShloMosaic Idealize.ShloMosaic.TcCoe Idealize.SL.Sem

/-- The bias as a one-row matrix. -/
abbrev asRow (b : FVec Ideal S256 .f32) : FVec Ideal Cert.KernelIdeal.S1x256 .f32 :=
  shapeCast Cert.KernelIdeal.S1x256 b Cert.KernelIdeal.Gen.shapeCasts_S256_S1x256

/-- Entry (0, j) of the bias read as a row is b[j]. -/
theorem asRow_apply (b : FVec Ideal S256 .f32) (i : S100000x256.Idx) :
    asRow b (Cert.Hyper.bAt i) = b (idx_main_v1 (idx_main_v2 i)) := by
  refine (shapeCast_addUnit_apply ![256] b Cert.KernelIdeal.Gen.shapeCasts_S256_S1x256 (Cert.Hyper.bAt i)).trans ?_
  refine congrArg b (funext fun a => Fin.ext ?_)
  match a with
  | ⟨0, _⟩ => rfl

/-- The reference's projection — the host product plus the bias spread over the rows — is `project` of the bias row. -/
theorem projection_eq (X : FVec Ideal S100000x256 .f32) (W : FVec Ideal S256x256 .f32) (b : FVec Ideal S256 .f32) :
    addf (Host.dotGeneral dot_S100000x256_S256x256_S100000x256_1_0_0_1_n_n none X W) (broadcastInDim S100000x256 ![0, 1] bcast_S1x256_S100000x256_0_1 (broadcastInDim S1x256 ![1] bcast_S256_S1x256_1 b))
      = Cert.Hyper.project X W (asRow b) := by
  funext i
  show val_main_v3 (F := Ideal) X W b i = _
  rw [val_main_v3_apply, val_main_v0_apply, val_main_v2_apply, val_main_v1_apply]
  unfold Cert.Hyper.project
  rw [asRow_apply]
  rfl

/-- The reference's whole term is the positive part of the aggregation of the projection. -/
theorem value_eq (X : FVec Ideal S100000x256 .f32) (W : FVec Ideal S256x256 .f32) (b : FVec Ideal S256 .f32) (vi ei : IVec S800000 32) :
    (maximumf (Host.divf (Host.scatterAdd scatter_S100000x256_S800000x1_S800000x256_1_0_0_1 (broadcastInDim S100000x256 ![] bcast_S_S100000x256 (constant S_ .f32 0x00000000#32)) (broadcastInDim S800000x1 ![0] bcast_S800000_S800000x1_0 vi) (Host.gather gather_S20000x256_S800000x1_S800000x256_1_0_n_n_0_1_1256 (Host.divf (Host.scatterAdd scatter_S20000x256_S800000x1_S800000x256_1_0_0_1 (broadcastInDim S20000x256 ![] bcast_S_S20000x256 (constant S_ .f32 0x00000000#32)) (broadcastInDim S800000x1 ![0] bcast_S800000_S800000x1_0 ei) (Host.gather gather_S100000x256_S800000x1_S800000x256_1_0_n_n_0_1_1256 (addf (Host.dotGeneral dot_S100000x256_S256x256_S100000x256_1_0_0_1_n_n none X W) (broadcastInDim S100000x256 ![0, 1] bcast_S1x256_S100000x256_0_1 (broadcastInDim S1x256 ![1] bcast_S256_S1x256_1 b))) (broadcastInDim S800000x1 ![0] bcast_S800000_S800000x1_0 (select (cmpi .slt vi (broadcastInDim S800000 ![] bcast_S_S800000 (constantI S_ 32 0#32))) (addi vi (broadcastInDim S800000 ![] bcast_S_S800000 (constantI S_ 32 100000#32))) vi)))) (broadcastInDim S20000x256 ![0, 1] bcast_S20000x1_S20000x256_0_1 (broadcastInDim S20000x1 ![0] bcast_S20000_S20000x1_0 (maximumf (Host.scatterAdd scatter_S20000_S800000x1_S800000_n_0_0_1 (broadcastInDim S20000 ![] bcast_S_S20000 (constant S_ .f32 0x00000000#32)) (broadcastInDim S800000x1 ![0] bcast_S800000_S800000x1_0 ei) (broadcastInDim S800000 ![] bcast_S_S800000 (constant S_ .f32 0x3F800000#32))) (broadcastInDim S20000 ![] bcast_S_S20000 (constant S_ .f32 0x3F800000#32)))))) (broadcastInDim S800000x1 ![0] bcast_S800000_S800000x1_0 (select (cmpi .slt ei (broadcastInDim S800000 ![] bcast_S_S800000 (constantI S_ 32 0#32))) (addi ei (broadcastInDim S800000 ![] bcast_S_S800000 (constantI S_ 32 20000#32))) ei)))) (broadcastInDim S100000x256 ![0, 1] bcast_S100000x1_S100000x256_0_1 (broadcastInDim S100000x1 ![0] bcast_S100000_S100000x1_0 (maximumf (Host.scatterAdd scatter_S100000_S800000x1_S800000_n_0_0_1 (broadcastInDim S100000 ![] bcast_S_S100000 (constant S_ .f32 0x00000000#32)) (broadcastInDim S800000x1 ![0] bcast_S800000_S800000x1_0 vi) (broadcastInDim S800000 ![] bcast_S_S800000 (constant S_ .f32 0x3F800000#32))) (broadcastInDim S100000 ![] bcast_S_S100000 (constant S_ .f32 0x3F800000#32)))))) (broadcastInDim S100000x256 ![] bcast_S_S100000x256 (constant S_ .f32 0x00000000#32)) : FVec Ideal S100000x256 .f32)
      = Cert.Hyper.relu (F := Ideal) (Cert.Hyper.aggregate (F := Ideal) (Cert.Hyper.project X W (asRow b)) vi ei) := by
  rw [← projection_eq X W b]
  rfl

end Cert.Hyper.Reference

end
-- ==== Proof.lean ====
/-
  A hypergraph convolution, kernel against reference, over the extended reals.

  Both programs compute, from features X (100000 × 256), weights W (256 × 256), a bias b (256) and 800000 incidence pairs
  (vertex_idx, edge_idx):

      relu ( mean over incident hyperedges ( mean over incident vertices ( X · W + b ) ) ).

  The kernel computes X · W + b in twenty row blocks on the matrix unit with both operands narrowed to a short float format,
  and the positive part in twenty row blocks again; the reference computes one host product and one host maximum. Over the
  extended reals the narrowing is the identity and each entry of either product is the same sum of 256 products, so both
  projections are one function (`Cert.Hyper.project`); the two mean aggregations in between are the same host operations in
  both programs (`Cert.Hyper.aggregate`), applied here to equal arguments and never opened; the positive part is taken entry
  by entry in both (`Cert.Hyper.relu`). No law of the extended reals beyond reindexing a finite sum is used, so the
  finiteness of the inputs is not needed.

  The three frames: the kernel's two at either float instance are the generated ones; the reference has no kernel region
  and its frame is its host run with the result dropped. The idealization rewrote no operation, so there is nothing to
  preserve.
-/
import proofs.«177175_j10187662426196_1_alg».proof.Defs
import proofs.«177175_j10187662426196_1_alg».proof.Proof.Gen.Kernel
import proofs.«177175_j10187662426196_1_alg».proof.Proof.Gen.Kernel.Frame
import proofs.«177175_j10187662426196_1_alg».proof.Proof.Gen.KernelIdeal
import proofs.«177175_j10187662426196_1_alg».proof.Proof.Gen.KernelIdeal.Frame
import proofs.«177175_j10187662426196_1_alg».proof.Proof.Gen.ReferenceIdeal
import proofs.«177175_j10187662426196_1_alg».proof.Proof.Gen.ReferenceIdeal.Run
import proofs.«177175_j10187662426196_1_alg».proof.Proof.Gen.Pre_finite_inputs
import proofs.«177175_j10187662426196_1_alg».proof.Proof.KValue
import proofs.«177175_j10187662426196_1_alg».proof.Proof.RefSide

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the result array at
    relu (aggregate (project X W b) vertex_idx edge_idx) of those arguments. -/
theorem algebraic : Cert.algebraic_KernelIdeal_ReferenceIdeal := by
  intro m ρ m' ρ' _ hagree
  refine ⟨fun c => Cert.Hyper.KernelValue.value m c, Cert.Hyper.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.Hyper.Reference.value_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
